-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S8x4096 .f32) (main_arg3 : FVec F S4096x8 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S8x512 : Shape := ⟨2, ![8, 512]⟩
abbrev S1024x8 : Shape := ⟨2, ![1024, 8]⟩
abbrev S1x1024 : Shape := ⟨2, ![1, 1024]⟩
abbrev S1024x1024 : Shape := ⟨2, ![1024, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S1024x8, .f32⟩
  | .local _ .vmem, ⟨7, _⟩ => ⟨S1024x8, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S8x512_S8x512_0_0 : ∀ a, (![0, 0] : Fin 2 → Nat) a + S8x512.size a ≤ S8x512.size a
  h_S8x512 : 0 < S8x512.numel
  inb_S1024x8_S1024x8_0_0 : ∀ a, (![0, 0] : Fin 2 → Nat) a + S1024x8.size a ≤ S1024x8.size a
  h_S1024x8 : 0 < S1024x8.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x8_S8x512_S1024x512_1_0_0_1_n_n_wf : DotDims.WF S1024x8 S8x512 S1024x512 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S4096x8.size a
  hwx0_3 : ∀ i : grid0.Coords, EltTy.bits .f32 = 32 ∨ (Rect.block (s := S4096x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x8_S8x512_S1024x512_1_0_0_1_n_n : DotDims S1024x8 S8x512 S1024x512 where
  lhsContracting := [1]
  rhsContracting := [0]
  lhsNonContracting := [0]
  rhsNonContracting := [1]
  lhsBatch := []
  rhsBatch := []
  wf := dot_S1024x8_S8x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x8_S8x4096_S4096x4096_1_0_0_1_n_n_wf : DotDims.WF S4096x8 S8x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What each control case of the kernel body leaves behind, as a value of the body's loads.

  The body runs in three cases along the contraction: the first stretch (the running sum is reset to zero and then
  updated), a middle stretch (updated), the last stretch (updated, then the output block is written as the running sum
  plus the bias).  Each store covers its whole 1024 × 1024 buffer, so what a buffer ends with is the last value stored
  into it; a load that follows a store in the same run reads that stored value back.
-/
import proofs.«179068_j43250320670934_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- First stretch: the running sum ends as the update of the zero block. -/
theorem scratch_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S8x512 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x512 .f32) (x1 : Vec F S1024x512 .f32) (x2 : Vec F S8x512 .f32) (x3 : Vec F S1024x8 .f32) (x4 : Vec F S1x1024 .f32) :
    sout0_A_0 c i arg3 harg3 arg4 harg4 arg5 harg5 arg6 harg6 arg7 harg7 arg8 harg8 arg9 harg9 hc0 hc1 x0 x1 x2 x3 x4 = k0_pay2 x0 x1 x2 x3 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread,
    View.ld_unit_zero (S := S1024x512) hz, View.ld_unit_zero (S := S8x512) hz, View.ld_unit_zero (S := S1024x8) hz,
    View.ld_unit_zero (S := S1024x1024) hz]

/-- A middle stretch: the running sum ends as the update of what the stretch before left. -/
theorem scratch_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S8x512 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x512 .f32) (x1 : Vec F S1024x512 .f32) (x2 : Vec F S8x512 .f32) (x3 : Vec F S1024x8 .f32) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg9.read_unread,
    View.ld_unit_zero (S := S1024x512) hz, View.ld_unit_zero (S := S8x512) hz, View.ld_unit_zero (S := S1024x8) hz,
    View.ld_unit_zero (S := S1024x1024) hz]

/-- The last stretch: the running sum is updated the same way, -/
theorem scratch_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S8x512 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .f32) (x1 : Vec F S1024x512 .f32) (x2 : Vec F S8x512 .f32) (x3 : Vec F S1024x8 .f32) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg9.read_unread,
    View.ld_unit_zero (S := S1024x512) hz, View.ld_unit_zero (S := S8x512) hz, View.ld_unit_zero (S := S1024x8) hz,
    View.ld_unit_zero (S := S1024x1024) hz]

/-- and the output block is written as that updated sum plus the bias row. -/
theorem output_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S8x512 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .f32) (x1 : Vec F S1024x512 .f32) (x2 : Vec F S8x512 .f32) (x3 : Vec F S1024x8 .f32) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 (k0_pay2 x0 x1 x2 x3 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread,
    View.ld_unit_zero (S := S1024x512) hz, View.ld_unit_zero (S := S8x512) hz, View.ld_unit_zero (S := S1024x8) hz,
    View.ld_unit_zero (S := S1x1024) hz, View.ld_unit_zero (S := S1024x1024) hz, View.readCov_unit_zero (S := S1024x1024) _ hz]

end Cert.KernelIdeal.Pieces

end
-- ==== Proof.Payload.lean ====
/-
  What the kernel body stores, read entry by entry over the extended reals.

  The body keeps a 1024 × 1024 running sum.  Its three stored values are: the zero block (at the first stretch of
  the contraction); the running sum plus  ∑ₑ x[p, e] · (base[q, e] + 2 · ∑ᵣ B[q, r] · A[r, e])  over the 512
  features of the current stretch — the rank-8 product and the 512-term product are both matrix products into a zero
  accumulator, so each is a plain finite sum, and the changes of float format are the identity here —; and, after the
  last stretch, the running sum plus the bias row broadcast down the 1024 rows.
-/
import proofs.«179068_j43250320670934_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The rank-8 product  B · A  of one tile: rows of `B` against columns of `A` -/

theorem lhs_lowrank_0 (i : S1024x512.Idx) (q : dot_S1024x8_S8x512_S1024x512_1_0_0_1_n_n.contr.Idx) :
    (dot_S1024x8_S8x512_S1024x512_1_0_0_1_n_n.lhsIdx i q 0).val = (i 0).val := by
  unfold DotDims.lhsIdx
  rw [dif_neg (show ¬(0 : Fin S1024x8.rank) ∈ dot_S1024x8_S8x512_S1024x512_1_0_0_1_n_n.lhsBatch by decide), dif_pos (show (0 : Fin S1024x8.rank) ∈ dot_S1024x8_S8x512_S1024x512_1_0_0_1_n_n.lhsNonContracting by decide)]
  rfl
theorem lhs_lowrank_1 (i : S1024x512.Idx) (q : dot_S1024x8_S8x512_S1024x512_1_0_0_1_n_n.contr.Idx) :
    (dot_S1024x8_S8x512_S1024x512_1_0_0_1_n_n.lhsIdx i q 1).val = (q ⟨0, by decide⟩).val :=
  dot_S1024x8_S8x512_S1024x512_1_0_0_1_n_n.lhsIdx_val_of_single rfl i q
theorem rhs_lowrank_0 (i : S1024x512.Idx) (q : dot_S1024x8_S8x512_S1024x512_1_0_0_1_n_n.contr.Idx) :
    (dot_S1024x8_S8x512_S1024x512_1_0_0_1_n_n.rhsIdx i q 0).val = (q ⟨0, by decide⟩).val :=
  dot_S1024x8_S8x512_S1024x512_1_0_0_1_n_n.rhsIdx_val_of_single rfl i q
theorem rhs_lowrank_1 (i : S1024x512.Idx) (q : dot_S1024x8_S8x512_S1024x512_1_0_0_1_n_n.contr.Idx) :
    (dot_S1024x8_S8x512_S1024x512_1_0_0_1_n_n.rhsIdx i q 1).val = (i 1).val := by
  unfold DotDims.rhsIdx
  rw [dif_neg (show ¬(1 : Fin S8x512.rank) ∈ dot_S1024x8_S8x512_S1024x512_1_0_0_1_n_n.rhsBatch by decide), dif_pos (show (1 : Fin S8x512.rank) ∈ dot_S1024x8_S8x512_S1024x512_1_0_0_1_n_n.rhsNonContracting by decide)]
  rfl

/-- Entry (q, e) of the rank-8 product into a zero accumulator: the eight products along the rank. -/
theorem lowrank_apply (lb : FVec Ideal S1024x8 .bf16) (la : FVec Ideal S8x512 .bf16) (q : Fin 1024) (e : Fin 512) :
    matmul dot_S1024x8_S8x512_S1024x512_1_0_0_1_n_n none lb la (constant (F := Ideal) S1024x512 .f32 0x00000000#32) (ix2 q e)
      = ∑ r : Fin 8, lb (ix2 q r) * la (ix2 r e) := by
  refine (Ideal.matmul_constant_zero_apply dot_S1024x8_S8x512_S1024x512_1_0_0_1_n_n none lb la (ix2 q e)).trans ?_
  rw [← Equiv.sum_comp (contrEquiv1 dot_S1024x8_S8x512_S1024x512_1_0_0_1_n_n 8 rfl rfl).symm]
  refine Finset.sum_congr rfl fun r _ => ?_
  have hk := contrEquiv1_symm_val dot_S1024x8_S8x512_S1024x512_1_0_0_1_n_n 8 rfl rfl r
  have el : dot_S1024x8_S8x512_S1024x512_1_0_0_1_n_n.lhsIdx (ix2 q e) ((contrEquiv1 dot_S1024x8_S8x512_S1024x512_1_0_0_1_n_n 8 rfl rfl).symm r) = ix2 q r := funext fun a => Fin.ext (by
    match a with
    | ⟨0, _⟩ => exact lhs_lowrank_0 _ _
    | ⟨1, _⟩ => exact (lhs_lowrank_1 _ _).trans hk)
  have er : dot_S1024x8_S8x512_S1024x512_1_0_0_1_n_n.rhsIdx (ix2 q e) ((contrEquiv1 dot_S1024x8_S8x512_S1024x512_1_0_0_1_n_n 8 rfl rfl).symm r) = ix2 r e := funext fun a => Fin.ext (by
    match a with
    | ⟨0, _⟩ => exact (rhs_lowrank_0 _ _).trans hk
    | ⟨1, _⟩ => exact rhs_lowrank_1 _ _)
  rw [el, er]

/-! ## The main product of one tile: rows of `x` against ROWS of the merged weight (both contract their second axis) -/

theorem lhs_main_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_main_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_main_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_main_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Entry (p, q) of the main product into a zero accumulator: the 512 products along the stretch. -/
theorem main_apply (xb : FVec Ideal S1024x512 .bf16) (wb : FVec Ideal S1024x512 .bf16) (p q : Fin 1024) :
    matmul dot_S1024x512_S1024x512_S1024x1024_1_1_0_0_n_n none xb wb (constant (F := Ideal) S1024x1024 .f32 0x00000000#32) (ix2 p q)
      = ∑ e : Fin 512, xb (ix2 p e) * wb (ix2 q e) := by
  refine (Ideal.matmul_constant_zero_apply dot_S1024x512_S1024x512_S1024x1024_1_1_0_0_n_n none xb wb (ix2 p q)).trans ?_
  rw [← Equiv.sum_comp (contrEquiv1 dot_S1024x512_S1024x512_S1024x1024_1_1_0_0_n_n 512 rfl rfl).symm]
  refine Finset.sum_congr rfl fun e _ => ?_
  have hk := contrEquiv1_symm_val dot_S1024x512_S1024x512_S1024x1024_1_1_0_0_n_n 512 rfl rfl e
  have el : dot_S1024x512_S1024x512_S1024x1024_1_1_0_0_n_n.lhsIdx (ix2 p q) ((contrEquiv1 dot_S1024x512_S1024x512_S1024x1024_1_1_0_0_n_n 512 rfl rfl).symm e) = ix2 p e := funext fun a => Fin.ext (by
    match a with
    | ⟨0, _⟩ => exact lhs_main_0 _ _
    | ⟨1, _⟩ => exact (lhs_main_1 _ _).trans hk)
  have er : dot_S1024x512_S1024x512_S1024x1024_1_1_0_0_n_n.rhsIdx (ix2 p q) ((contrEquiv1 dot_S1024x512_S1024x512_S1024x1024_1_1_0_0_n_n 512 rfl rfl).symm e) = ix2 q e := funext fun a => Fin.ext (by
    match a with
    | ⟨0, _⟩ => exact rhs_main_0 _ _
    | ⟨1, _⟩ => exact (rhs_main_1 _ _).trans hk)
  rw [el, er]

/-! ## The three stored values, entry by entry -/

/-- The reset stores zero everywhere. -/
theorem reset_apply (j : S1024x1024.Idx) : k0_pay1 (F := Ideal) j = 0 := by
  unfold k0_pay1
  simp only [shapeCast_self]
  exact Ideal.ofBits_zero_f32

/-- The update: the running sum plus this stretch's 512 products of `x` with the merged weight. -/
theorem update_apply (x bw : Vec Ideal S1024x512 .f32) (la : Vec Ideal S8x512 .f32) (lb : Vec Ideal S1024x8 .f32)
    (acc : Vec Ideal S1024x1024 .f32) (p q : Fin 1024) :
    k0_pay2 (F := Ideal) x bw la lb acc (ix2 p q)
      = acc (ix2 p q) + ∑ e : Fin 512, x (ix2 p e)
          * (bw (ix2 q e) + Ideal.ofBits .f32 0x40000000#32 * ∑ r : Fin 8, lb (ix2 q r) * la (ix2 r e)) := by
  unfold k0_pay2
  simp only [shapeCast_self]
  rw [addf_apply, main_apply]
  refine congrArg (acc (ix2 p q) + ·) (Finset.sum_congr rfl fun e _ => ?_)
  rw [truncf_apply, truncf_apply, addf_apply, mulf_apply, broadcast_apply, lowrank_apply]
  rfl

/-- The final value: the running sum plus the bias of the entry's column. -/
theorem finish_apply (acc : Vec Ideal S1024x1024 .f32) (bias : Vec Ideal S1x1024 .f32) (p q : Fin 1024) :
    k0_pay3 (F := Ideal) acc bias (ix2 p q) = acc (ix2 p q) + bias (ix2 0 q) := by
  unfold k0_pay3
  simp only [shapeCast_self]
  rw [addf_apply]
  refine congrArg (acc (ix2 p q) + ·) ?_
  exact broadcastTo_apply bias broadcasts_S1x1024_S1024x1024 (ix2 p q) (ix2 0 q) (fun a => by
    match a with
    | ⟨0, _⟩ => rfl
    | ⟨1, _⟩ => rfl)

end Cert.KernelIdeal.Payload

end
-- ==== Proof.Spec.lean ====
/-
  The mathematics of the LoRA linear layer, stated once over extended reals and independent of either program.

  With  W[o, i] = base[o, i] + 2 · ∑ᵣ B[o, r] · A[r, i]  (the low-rank update merged into the base weight; the
  factor 2 is alpha / rank), the layer's output is

      y[b, s, o] = (∑ᵢ x[b, s, i] · W[o, i]) + bias[o].

  The contraction over the 4096 input features is cut into eight consecutive stretches of 512; `partialDot` is
  the sum over the first `n` stretches.  Adding one more stretch is adding a sum over 512 further features
  (`partialDot_succ`); eight stretches are the whole contraction (`partialDot_full`).  Only associativity
  and commutativity of addition on the extended reals are used, so nothing here needs the inputs to be finite.
-/
import Idealize.ShloMosaic.PureOps.Ideal
import Idealize.ShloMosaic.Lib.ValueIdx
import Mathlib.Algebra.BigOperators.Fin

noncomputable section

namespace LoraLinear

open Idealize.ShloMosaic Idealize.ShloMosaic.ValueIdx

/-- A matrix of extended reals read at natural-number coordinates: its entry inside the extents, zero outside.
    Reading through natural numbers keeps every row and column computation plain arithmetic. -/
def at2 {A B : Nat} (v : (⟨2, ![A, B]⟩ : Shape).Idx → EReal) (a b : Nat) : EReal :=
  if h : a < A ∧ b < B then v (ix2 ⟨a, h.1⟩ ⟨b, h.2⟩) else 0

theorem at2_ix2 {A B : Nat} (v : (⟨2, ![A, B]⟩ : Shape).Idx → EReal) (a : Fin A) (b : Fin B) :
    at2 v a.val b.val = v (ix2 a b) := by
  unfold at2; rw [dif_pos ⟨a.isLt, b.isLt⟩]

theorem at2_of_lt {A B : Nat} (v : (⟨2, ![A, B]⟩ : Shape).Idx → EReal) (a b : Nat) (ha : a < A) (hb : b < B) :
    at2 v a b = v (ix2 ⟨a, ha⟩ ⟨b, hb⟩) := by
  unfold at2; rw [dif_pos ⟨ha, hb⟩]

/-- The scale alpha / rank = 2, as the f32 word both programs carry. -/
abbrev two : EReal := Ideal.ofBits .f32 0x40000000#32

/-- The merged weight: the base weight plus twice the product of the two low-rank factors. -/
def weight (bw : (⟨2, ![4096, 4096]⟩ : Shape).Idx → EReal) (la : (⟨2, ![8, 4096]⟩ : Shape).Idx → EReal)
    (lb : (⟨2, ![4096, 8]⟩ : Shape).Idx → EReal) (o i : Nat) : EReal :=
  at2 bw o i + two * ∑ r : Fin 8, at2 lb o r.val * at2 la r.val i

/-- One product of the contraction: input feature `e` of row `row` times the merged weight of output `col`. -/
def term (x : (⟨2, ![8192, 4096]⟩ : Shape).Idx → EReal) (bw : (⟨2, ![4096, 4096]⟩ : Shape).Idx → EReal)
    (la : (⟨2, ![8, 4096]⟩ : Shape).Idx → EReal) (lb : (⟨2, ![4096, 8]⟩ : Shape).Idx → EReal)
    (row col e : Nat) : EReal :=
  at2 x row e * weight bw la lb col e

/-- The contraction over the first `512 · n` input features. -/
def partialDot (x : (⟨2, ![8192, 4096]⟩ : Shape).Idx → EReal) (bw : (⟨2, ![4096, 4096]⟩ : Shape).Idx → EReal)
    (la : (⟨2, ![8, 4096]⟩ : Shape).Idx → EReal) (lb : (⟨2, ![4096, 8]⟩ : Shape).Idx → EReal)
    (row col n : Nat) : EReal :=
  ∑ e ∈ Finset.range (512 * n), term x bw la lb row col e

variable (x : (⟨2, ![8192, 4096]⟩ : Shape).Idx → EReal) (bw : (⟨2, ![4096, 4096]⟩ : Shape).Idx → EReal)
  (la : (⟨2, ![8, 4096]⟩ : Shape).Idx → EReal) (lb : (⟨2, ![4096, 8]⟩ : Shape).Idx → EReal)

theorem partialDot_zero (row col : Nat) : partialDot x bw la lb row col 0 = 0 := by
  unfold partialDot; rw [Nat.mul_zero, Finset.range_zero, Finset.sum_empty]

/-- One more stretch of 512 features. -/
theorem partialDot_succ (row col n : Nat) :
    partialDot x bw la lb row col (n + 1)
      = partialDot x bw la lb row col n + ∑ e : Fin 512, term x bw la lb row col (512 * n + e.val) := by
  unfold partialDot
  rw [show 512 * (n + 1) = 512 * n + 512 from by ring, Finset.sum_range_add]
  exact congrArg (_ + ·) (Finset.sum_range fun e => term x bw la lb row col (512 * n + e))

/-- Eight stretches are the whole contraction. -/
theorem partialDot_full (row col : Nat) :
    partialDot x bw la lb row col 8 = ∑ e : Fin 4096, term x bw la lb row col e.val := by
  unfold partialDot
  rw [show 512 * 8 = 4096 from rfl, Finset.sum_range]

/-- The layer's output, index by index, as a function of the five argument arrays. -/
def output (x0 : (⟨3, ![4, 2048, 4096]⟩ : Shape).Idx → EReal) (bias : (⟨1, ![4096]⟩ : Shape).Idx → EReal) :
    (⟨3, ![4, 2048, 4096]⟩ : Shape).Idx → EReal :=
  fun i => (∑ e : Fin 4096, x0 (ix3 (i 0) (i 1) e) * weight bw la lb (i 2).val e.val) + bias (ix1 (i 2))

end LoraLinear

end
-- ==== Proof.Blocks.lean ====
/-
  Which entries of the arrays each grid point sees.

  The grid has 8 × 4 × 8 = 256 points; point `t` works on row tile `t / 32`, column tile `(t / 8) % 4` and
  contraction stretch `t % 8` (the stretch index moves fastest).  Each window's block at a point is a rectangle of
  its array: entry (p, e) of the block is entry (tile · extent + p, tile' · extent' + e) of the array.
-/
import proofs.«179068_j43250320670934_1_alg».proof.Proof.Gen.KernelIdeal.Frame
import proofs.«179068_j43250320670934_1_alg».proof.Proof.Spec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx LoraLinear

variable (m : (ℓ : Loc nD τ sig) → Buf (Elt Ideal) ℓ)

/-- The five arrays as the region finds them, at their literal types: `x` reshaped to 8192 × 4096, the base
    weight, the two low-rank factors, and the bias reshaped to one row. -/
abbrev xArr (c : Dev nD) : Vec Ideal S8192x4096 .f32 := V m c main_v0
abbrev bwArr (c : Dev nD) : Vec Ideal S4096x4096 .f32 := V m c main_arg1
abbrev laArr (c : Dev nD) : Vec Ideal S8x4096 .f32 := V m c main_arg2
abbrev lbArr (c : Dev nD) : Vec Ideal S4096x8 .f32 := V m c main_arg3
abbrev biasArr (c : Dev nD) : Vec Ideal S1x4096 .f32 := V m c main_v1

/-- The five input blocks at a point, at their literal types. -/
abbrev xBlk (c : Dev nD) (t : Fin cfg0.N) : Vec Ideal S1024x512 .f32 := iblk m c 0 t
abbrev bwBlk (c : Dev nD) (t : Fin cfg0.N) : Vec Ideal S1024x512 .f32 := iblk m c 1 t
abbrev laBlk (c : Dev nD) (t : Fin cfg0.N) : Vec Ideal S8x512 .f32 := iblk m c 2 t
abbrev lbBlk (c : Dev nD) (t : Fin cfg0.N) : Vec Ideal S1024x8 .f32 := iblk m c 3 t
abbrev biasBlk (c : Dev nD) (t : Fin cfg0.N) : Vec Ideal S1x1024 .f32 := iblk m c 4 t

theorem lt256 (t : Fin cfg0.N) : t.val < 256 := lt_of_lt_of_eq t.isLt (show cfg0.N = 256 from N_0)

/-! ## The block indices, decided once over the grid -/

theorem idx_x : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
theorem idx_bw : ∀ t : Fin cfg0.N, win0_1.index t (0 : Fin 2) = t.val / 8 % 4 ∧ win0_1.index t (1 : Fin 2) = t.val % 8 :=
  (by decide +kernel : ∀ t : Fin grid0.N, win0_1.index t (0 : Fin 2) = t.val / 8 % 4 ∧ win0_1.index t (1 : Fin 2) = t.val % 8)
theorem idx_la : ∀ t : Fin cfg0.N, win0_2.index t (0 : Fin 2) = 0 ∧ win0_2.index t (1 : Fin 2) = t.val % 8 :=
  (by decide +kernel : ∀ t : Fin grid0.N, win0_2.index t (0 : Fin 2) = 0 ∧ win0_2.index t (1 : Fin 2) = t.val % 8)
theorem idx_lb : ∀ t : Fin cfg0.N, win0_3.index t (0 : Fin 2) = t.val / 8 % 4 ∧ win0_3.index t (1 : Fin 2) = 0 :=
  (by decide +kernel : ∀ t : Fin grid0.N, win0_3.index t (0 : Fin 2) = t.val / 8 % 4 ∧ win0_3.index t (1 : Fin 2) = 0)
theorem idx_bias : ∀ t : Fin cfg0.N, win0_4.index t (0 : Fin 2) = 0 ∧ win0_4.index t (1 : Fin 2) = t.val / 8 % 4 :=
  (by decide +kernel : ∀ t : Fin grid0.N, win0_4.index t (0 : Fin 2) = 0 ∧ win0_4.index t (1 : Fin 2) = t.val / 8 % 4)
theorem idx_out : ∀ t : Fin cfg0.N, win0_5.index t (0 : Fin 2) = t.val / 32 ∧ win0_5.index t (1 : Fin 2) = t.val / 8 % 4 :=
  (by decide +kernel : ∀ t : Fin grid0.N, win0_5.index t (0 : Fin 2) = t.val / 32 ∧ win0_5.index t (1 : Fin 2) = t.val / 8 % 4)

/-! ## The blocks read at an entry -/

/-- `x`'s block: rows of the point's row tile, features of its stretch. -/
theorem xBlk_apply (c : Dev nD) (t : Fin cfg0.N) (p : Fin 1024) (e : Fin 512) :
    xBlk m c t (ix2 p e) = at2 (xArr m c) (1024 * (t.val / 32) + p.val) (512 * (t.val % 8) + e.val) := by
  have ht := lt256 t; have hp := p.isLt; have he := e.isLt
  rw [at2_of_lt _ _ _ (by omega) (by omega)]
  unfold xBlk iblk
  rw [View.read_apply]
  show V m c main_v0 _ = V m c main_v0 _
  refine congrArg (V m c main_v0) (funext fun a => Fin.ext ?_)
  match a with
  | ⟨0, _⟩ => show win0_0.index t 0 * 1024 + 1 * p.val = 1024 * (t.val / 32) + p.val; rw [(idx_x t).1]; omega
  | ⟨1, _⟩ => show win0_0.index t 1 * 512 + 1 * e.val = 512 * (t.val % 8) + e.val; rw [(idx_x t).2]; omega

/-- The base weight's block: rows (output features) of the point's column tile, features of its stretch. -/
theorem bwBlk_apply (c : Dev nD) (t : Fin cfg0.N) (q : Fin 1024) (e : Fin 512) :
    bwBlk m c t (ix2 q e) = at2 (bwArr m c) (1024 * (t.val / 8 % 4) + q.val) (512 * (t.val % 8) + e.val) := by
  have ht := lt256 t; have hq := q.isLt; have he := e.isLt
  rw [at2_of_lt _ _ _ (by omega) (by omega)]
  unfold bwBlk iblk
  rw [View.read_apply]
  show V m c main_arg1 _ = V m c main_arg1 _
  refine congrArg (V m c main_arg1) (funext fun a => Fin.ext ?_)
  match a with
  | ⟨0, _⟩ => show win0_1.index t 0 * 1024 + 1 * q.val = 1024 * (t.val / 8 % 4) + q.val; rw [(idx_bw t).1]; omega
  | ⟨1, _⟩ => show win0_1.index t 1 * 512 + 1 * e.val = 512 * (t.val % 8) + e.val; rw [(idx_bw t).2]; omega

/-- Factor `A`'s block: all eight rank rows, features of the point's stretch. -/
theorem laBlk_apply (c : Dev nD) (t : Fin cfg0.N) (r : Fin 8) (e : Fin 512) :
    laBlk m c t (ix2 r e) = at2 (laArr m c) r.val (512 * (t.val % 8) + e.val) := by
  have ht := lt256 t; have hr := r.isLt; have he := e.isLt
  rw [at2_of_lt _ _ _ (by omega) (by omega)]
  unfold laBlk iblk
  rw [View.read_apply]
  show V m c main_arg2 _ = V m c main_arg2 _
  refine congrArg (V m c main_arg2) (funext fun a => Fin.ext ?_)
  match a with
  | ⟨0, _⟩ => show win0_2.index t 0 * 8 + 1 * r.val = r.val; rw [(idx_la t).1]; omega
  | ⟨1, _⟩ => show win0_2.index t 1 * 512 + 1 * e.val = 512 * (t.val % 8) + e.val; rw [(idx_la t).2]; omega

/-- Factor `B`'s block: rows of the point's column tile, all eight rank columns. -/
theorem lbBlk_apply (c : Dev nD) (t : Fin cfg0.N) (q : Fin 1024) (r : Fin 8) :
    lbBlk m c t (ix2 q r) = at2 (lbArr m c) (1024 * (t.val / 8 % 4) + q.val) r.val := by
  have ht := lt256 t; have hq := q.isLt; have hr := r.isLt
  rw [at2_of_lt _ _ _ (by omega) (by omega)]
  unfold lbBlk iblk
  rw [View.read_apply]
  show V m c main_arg3 _ = V m c main_arg3 _
  refine congrArg (V m c main_arg3) (funext fun a => Fin.ext ?_)
  match a with
  | ⟨0, _⟩ => show win0_3.index t 0 * 1024 + 1 * q.val = 1024 * (t.val / 8 % 4) + q.val; rw [(idx_lb t).1]; omega
  | ⟨1, _⟩ => show win0_3.index t 1 * 8 + 1 * r.val = r.val; rw [(idx_lb t).2]; omega

/-- The bias row's block: the columns of the point's column tile. -/
theorem biasBlk_apply (c : Dev nD) (t : Fin cfg0.N) (q : Fin 1024) :
    biasBlk m c t (ix2 0 q) = at2 (biasArr m c) 0 (1024 * (t.val / 8 % 4) + q.val) := by
  have ht := lt256 t; have hq := q.isLt
  rw [at2_of_lt _ _ _ (by omega) (by omega)]
  unfold biasBlk iblk
  rw [View.read_apply]
  show V m c main_v1 _ = V m c main_v1 _
  refine congrArg (V m c main_v1) (funext fun a => Fin.ext ?_)
  match a with
  | ⟨0, _⟩ => show win0_4.index t 0 * 1 + 1 * 0 = 0; rw [(idx_bias t).1]
  | ⟨1, _⟩ => show win0_4.index t 1 * 1024 + 1 * q.val = 1024 * (t.val / 8 % 4) + q.val; rw [(idx_bias t).2]; omega

end Cert.KernelIdeal.Blocks

end
-- ==== Proof.Running.lean ====
/-
  The running sum, point by point.

  At a grid point with row tile `I`, column tile `J` and stretch `K`, the update adds to entry (p, q) of the
  running sum the 512 products of stretch `K` for row `1024·I + p` and output feature `1024·J + q`
  (`update_stretch`).  The running sum is reset at `K = 0` and the tiles do not change while `K` runs from 0 to 7,
  so after the point it holds the contraction over the first `K + 1` stretches (`running_eq`, by induction on
  the point).  At `K = 7` the block written to the output is that full contraction plus the bias (`written_eq`).
-/
import proofs.«179068_j43250320670934_1_alg».proof.Proof.Pieces
import proofs.«179068_j43250320670934_1_alg».proof.Proof.Payload
import proofs.«179068_j43250320670934_1_alg».proof.Proof.Blocks

set_option maxRecDepth 16384

noncomputable section

namespace Cert.KernelIdeal.Running

open Cert.KernelIdeal Cert.KernelIdeal.Gen Idealize.ShloMosaic Idealize.ShloMosaic.TcCoe Idealize.SL.Sem
open Idealize.ShloMosaic.ValueIdx LoraLinear Cert.KernelIdeal.Blocks Cert.KernelIdeal.Payload Cert.KernelIdeal.Pieces

variable (m : (ℓ : Loc nD τ sig) → Buf (Elt Ideal) ℓ)

/-- The update at a point, entry by entry: the running sum plus the point's stretch of the contraction. -/
theorem update_stretch (c : Dev nD) (t : Fin cfg0.N) (acc : Vec Ideal S1024x1024 .f32) (p q : Fin 1024) :
    k0_pay2 (F := Ideal) (xBlk m c t) (bwBlk m c t) (laBlk m c t) (lbBlk m c t) acc (ix2 p q)
      = acc (ix2 p q) + ∑ e : Fin 512, term (xArr m c) (bwArr m c) (laArr m c) (lbArr m c)
          (1024 * (t.val / 32) + p.val) (1024 * (t.val / 8 % 4) + q.val) (512 * (t.val % 8) + e.val) := by
  rw [update_apply]
  refine congrArg (acc (ix2 p q) + ·) (Finset.sum_congr rfl fun e _ => ?_)
  rw [xBlk_apply, bwBlk_apply]
  unfold term weight
  refine congrArg (fun s => at2 (xArr m c) _ _ * (at2 (bwArr m c) _ _ + two * s)) (Finset.sum_congr rfl fun r _ => ?_)
  rw [lbBlk_apply, laBlk_apply]

/-- After point `n` the running sum holds the contraction over the first `n % 8 + 1` stretches, for the point's tiles. -/
theorem running_eq (c : Dev nD) : ∀ (n : ℕ) (h : n < cfg0.N) (p q : Fin 1024),
    (outsAt0 m c n h).2 (ix2 p q)
      = partialDot (xArr m c) (bwArr m c) (laArr m c) (lbArr m c) (1024 * (n / 32) + p.val) (1024 * (n / 8 % 4) + q.val) (n % 8 + 1) := by
  intro n
  induction n with
  | zero =>
    intro h p q
    have key : (outsAt0 m c 0 h).2 = k0_pay2 (F := Ideal) (xBlk m c ⟨0, h⟩) (bwBlk m c ⟨0, h⟩) (laBlk m c ⟨0, h⟩) (lbBlk m c ⟨0, h⟩) (k0_pay1 (F := Ideal)) := by
      rw [outsAt0_A m c ⟨0, h⟩ rfl (by dsimp only; omega)]; dsimp only
      exact scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩)
    rw [key, update_stretch, reset_apply]
    show _ = partialDot (xArr m c) (bwArr m c) (laArr m c) (lbArr m c) _ _ (0 + 1)
    rw [partialDot_succ, partialDot_zero]
    rfl
  | succ n ih =>
    intro h p q
    have hN : n + 1 < 256 := lt_of_lt_of_eq h (show cfg0.N = 256 from N_0)
    by_cases h0 : (n + 1) % 8 = 0
    · have h1 : ¬(n + 1) % 8 = 7 := by omega
      have key : (outsAt0 m c (n + 1) h).2 = k0_pay2 (F := Ideal) (xBlk m c ⟨n + 1, h⟩) (bwBlk m c ⟨n + 1, h⟩) (laBlk m c ⟨n + 1, h⟩) (lbBlk m c ⟨n + 1, h⟩) (k0_pay1 (F := Ideal)) := by
        rw [outsAt0_A m c ⟨n + 1, h⟩ h0 h1]; dsimp only
        exact scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩)
      rw [key, update_stretch, reset_apply]
      show _ + ∑ e : Fin 512, term (xArr m c) (bwArr m c) (laArr m c) (lbArr m c) _ _ (512 * ((n + 1) % 8) + e.val) = _
      rw [h0, partialDot_succ, partialDot_zero]
    · have hprev : (outsAt0 m c n (Nat.lt_of_succ_lt h)).2 (ix2 p q)
          = partialDot (xArr m c) (bwArr m c) (laArr m c) (lbArr m c) (1024 * ((n + 1) / 32) + p.val) (1024 * ((n + 1) / 8 % 4) + q.val) ((n + 1) % 8) := by
        rw [ih (Nat.lt_of_succ_lt h) p q]
        rw [show n / 32 = (n + 1) / 32 from by omega, show n / 8 % 4 = (n + 1) / 8 % 4 from by omega,
          show n % 8 + 1 = (n + 1) % 8 from by omega]
      have key : (outsAt0 m c (n + 1) h).2 = k0_pay2 (F := Ideal) (xBlk m c ⟨n + 1, h⟩) (bwBlk m c ⟨n + 1, h⟩) (laBlk m c ⟨n + 1, h⟩) (lbBlk m c ⟨n + 1, h⟩) (outsAt0 m c n (Nat.lt_of_succ_lt h)).2 := by
        by_cases h1 : (n + 1) % 8 = 7
        · rw [outsAt0_C m c ⟨n + 1, h⟩ h0 h1]; dsimp only
          exact scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2
        · rw [outsAt0_B m c ⟨n + 1, h⟩ h0 h1]; dsimp only
          exact scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2
      rw [key, update_stretch, hprev]
      exact (partialDot_succ (xArr m c) (bwArr m c) (laArr m c) (lbArr m c) _ _ _).symm

end Cert.KernelIdeal.Running

end
-- ==== Proof.Written.lean ====
/-
  What the output array holds when the grid is done.

  The output's 1024 × 1024 block of row tile `I` and column tile `J` is written back once, after the last
  stretch (`t % 8 = 7`), as the full contraction plus the bias; these 32 blocks tile the 8192 × 4096 array.  So
  entry (R, o) of the array ends as the contraction of row `R` of `x` against row `o` of the merged weight, plus
  `bias[o]` (`outArr`).
-/
import proofs.«179068_j43250320670934_1_alg».proof.Proof.Running

set_option maxRecDepth 16384

noncomputable section

namespace Cert.KernelIdeal.Written

open Cert.KernelIdeal Cert.KernelIdeal.Gen Idealize.ShloMosaic Idealize.ShloMosaic.TcCoe Idealize.SL.Sem
open Idealize.ShloMosaic.ValueIdx LoraLinear Cert.KernelIdeal.Blocks Cert.KernelIdeal.Payload Cert.KernelIdeal.Pieces
open Cert.KernelIdeal.Running
open Idealize.ShloMosaic.Pipeline (Dat)

variable (m : (ℓ : Loc nD τ sig) → Buf (Elt Ideal) ℓ)

/-- The block written at a last-stretch point, entry by entry: eight stretches of the contraction, plus the bias. -/
theorem written_eq (c : Dev nD) (t : Fin cfg0.N) (h1 : t.val % 8 = 7) (j : S1024x1024.Idx) :
    (outsAt0 m c t.val t.isLt).1 j
      = partialDot (xArr m c) (bwArr m c) (laArr m c) (lbArr m c) (1024 * (t.val / 32) + (j 0).val) (1024 * (t.val / 8 % 4) + (j 1).val) 8
        + at2 (biasArr m c) 0 (1024 * (t.val / 8 % 4) + (j 1).val) := by
  obtain ⟨p, q, rfl⟩ : ∃ (p q : Fin 1024), j = ix2 p q := ⟨j 0, j 1, eq_ix2 j⟩
  have h0 : ¬t.val % 8 = 0 := by omega
  have k1 : (outsAt0 m c t.val t.isLt).1 = k0_pay3 (F := Ideal) (k0_pay2 (F := Ideal) (xBlk m c t) (bwBlk m c t) (laBlk m c t) (lbBlk m c t) (outsAt0 m c (t.val - 1) (Nat.lt_of_le_of_lt (Nat.sub_le _ _) t.isLt)).2) (biasBlk m c t) := by
    rw [outsAt0_C m c t h0 h1]; dsimp only
    exact output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2
  have k2 : (outsAt0 m c t.val t.isLt).2 = k0_pay2 (F := Ideal) (xBlk m c t) (bwBlk m c t) (laBlk m c t) (lbBlk m c t) (outsAt0 m c (t.val - 1) (Nat.lt_of_le_of_lt (Nat.sub_le _ _) t.isLt)).2 := by
    rw [outsAt0_C m c t h0 h1]; dsimp only
    exact scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2
  rw [k1, ← k2, finish_apply, running_eq, biasBlk_apply, h1]

/-- The output array when the grid is done: entry (R, o) is the full contraction for row `R` and output feature
    `o`, plus the bias of `o`. -/
def outArr (c : Dev nD) : Vec Ideal S8192x4096 .f32 :=
  fun i => partialDot (xArr m c) (bwArr m c) (laArr m c) (lbArr m c) (i 0).val (i 1).val 8 + at2 (biasArr m c) 0 (i 1).val

/-- What a last-stretch point writes back is its block of `outArr`. -/
theorem flushed_eq (c : Dev nD) (t : Fin cfg0.N) (hf : (cfg0.win 5).flush t = true) :
    (dats m 0 c).flushed 5 t = ((cfg0.win 5).blk t).view.read (Elt Ideal) (outArr m c) := by
  have h1 : t.val % 8 = 7 := (flush0_5 t).mp hf
  show (cfg0.win 5).cut (grid0.coords t) ((dats m 0 c).after 5 t) = _
  rw [after0_5]
  funext j
  refine (written_eq m c t h1 j).trans ?_
  rw [View.read_apply]
  have e0 : ((((cfg0.win 5).blk t).view.emb j) 0).val = 1024 * (t.val / 32) + (j 0).val := by
    show win0_5.index t (0 : Fin 2) * 1024 + 1 * (j 0).val = _; rw [(idx_out t).1]; omega
  have e1 : ((((cfg0.win 5).blk t).view.emb j) 1).val = 1024 * (t.val / 8 % 4) + (j 1).val := by
    show win0_5.index t (1 : Fin 2) * 1024 + 1 * (j 1).val = _; rw [(idx_out t).2]; omega
  show _ = partialDot (xArr m c) (bwArr m c) (laArr m c) (lbArr m c) ((((cfg0.win 5).blk t).view.emb j) 0).val ((((cfg0.win 5).blk t).view.emb j) 1).val 8
      + at2 (biasArr m c) 0 ((((cfg0.win 5).blk t).view.emb j) 1).val
  rw [e0, e1]

/-- An entry of the array is in point `t`'s block iff each coordinate is in the block's range on its axis. -/
theorem mem_blk (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2).slice (win0_5.rect t)).set ↔ _
  rw [View.set_slice_whole, Rect.mem_set_unit]
  exact Iff.rfl

/-- Every entry lies in the block written back at the last stretch of its row tile and column tile. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 256 := N_0
  let t : Fin cfg0.N := ⟨((i 0).val / 1024 * 4 + (i 1).val / 1024) * 8 + 7, by rw [hN]; omega⟩
  have hv : t.val = ((i 0).val / 1024 * 4 + (i 1).val / 1024) * 8 + 7 := rfl
  refine ⟨t, (flush0_5 t).mpr (by rw [hv]; omega), ?_⟩
  rw [mem_blk]
  intro a
  match a with
  | ⟨0, _⟩ =>
    show win0_5.index t (0 : Fin 2) * 1024 ≤ (i 0).val ∧ (i 0).val < win0_5.index t (0 : Fin 2) * 1024 + 1024
    rw [(idx_out t).1, hv]; omega
  | ⟨1, _⟩ =>
    show win0_5.index t (1 : Fin 2) * 1024 ≤ (i 1).val ∧ (i 1).val < win0_5.index t (1 : Fin 2) * 1024 + 1024
    rw [(idx_out t).2, hv]; omega

/-- So after the last point the output array is `outArr`. -/
theorem final (c : Dev nD) : (dats m 0 c).arrAt 5 cfg0.N = outArr m c :=
  (dats m 0 c).arrAt_eq_of_cover 5 (outArr m c) (flushed_eq m c) cover

end Cert.KernelIdeal.Written

end
-- ==== Proof.KernelValue.lean ====
/-
  The kernel's result as a function of its five arguments.

  Before the grid the program views `x` as an 8192 × 4096 matrix (row 2048·b + s is row (b, s)) and the bias as
  one row; after the grid it views the 8192 × 4096 output as a 4 × 2048 × 4096 tensor again.  Through these changes
  of shape the array the grid leaves (`outArr`) is the layer's output function `LoraLinear.output` of the
  arguments: eight stretches are the whole contraction over the 4096 input features.
-/
import proofs.«179068_j43250320670934_1_alg».proof.Proof.Written
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx LoraLinear Cert.KernelIdeal.Blocks Cert.KernelIdeal.Written Idealize.ShloMosaic.StableHlo

variable (m : (ℓ : Loc nD τ sig) → Buf (Elt Ideal) ℓ) (ρ : Dev nD → PrngReg)

/-- The five arguments at launch, at their literal types. -/
abbrev argX (c : Dev nD) : S4x2048x4096.Idx → EReal := m ((c : Thread nD τ).loc main_arg0)
abbrev argBase (c : Dev nD) : S4096x4096.Idx → EReal := m ((c : Thread nD τ).loc main_arg1)
abbrev argA (c : Dev nD) : S8x4096.Idx → EReal := m ((c : Thread nD τ).loc main_arg2)
abbrev argB (c : Dev nD) : S4096x8.Idx → EReal := m ((c : Thread nD τ).loc main_arg3)
abbrev argBias (c : Dev nD) : S4096.Idx → EReal := m ((c : Thread nD τ).loc main_arg4)

/-! ## The arrays the grid reads, in terms of the arguments -/

theorem xArr_eq (c : Dev nD) : xArr m c = shapeCast S8192x4096 (argX m c) shapeCasts_S4x2048x4096_S8192x4096 := by
  show StableHlo.after hostOps0 (fun b => m (c, b)) (Proc.devRef .tc main_v0) = _
  after_results
  rfl

theorem biasArr_eq (c : Dev nD) : biasArr m c = shapeCast S1x4096 (argBias m c) shapeCasts_S4096_S1x4096 := by
  show StableHlo.after hostOps0 (fun b => m (c, b)) (Proc.devRef .tc main_v1) = _
  after_results
  rfl

theorem bwArr_eq (c : Dev nD) : bwArr m c = (argBase m c) := V_main_arg1 m c
theorem laArr_eq (c : Dev nD) : laArr m c = (argA m c) := V_main_arg2 m c
theorem lbArr_eq (c : Dev nD) : lbArr m c = (argB m c) := V_main_arg3 m c

/-- Row `2048·b + s` of the matrix view of `x` is row (b, s) of `x`. -/
theorem xArr_apply (c : Dev nD) (b : Fin 4) (s : Fin 2048) (e : Fin 4096) :
    at2 (xArr m c) (2048 * b.val + s.val) e.val = (argX m c) (ix3 b s e) := by
  have hb := b.isLt; have hs := s.isLt
  rw [at2_of_lt _ _ _ (by omega) e.isLt, xArr_eq]
  refine shapeCast_apply _ _ _ (ix3 b s e) ?_
  rw [Shape.rowMajor_val_three, Shape.rowMajor_val_two]
  show (b.val * 2048 + s.val) * 4096 + e.val = (2048 * b.val + s.val) * 4096 + e.val
  omega

/-- Column `o` of the one-row view of the bias is `bias[o]`. -/
theorem biasArr_apply (c : Dev nD) (o : Fin 4096) :
    at2 (biasArr m c) 0 o.val = (argBias m c) (ix1 o) := by
  rw [at2_of_lt _ _ _ (by omega) o.isLt, biasArr_eq]
  refine shapeCast_apply _ _ _ (ix1 o) ?_
  rw [Shape.rowMajor_val_one, Shape.rowMajor_val_two]
  show o.val = 0 * 4096 + o.val
  omega

/-! ## The result -/

/-- The tensor view of what the grid leaves is the layer's output function of the five arguments. -/
theorem result_eq (c : Dev nD) :
    shapeCast S4x2048x4096 (outArr m c) shapeCasts_S8192x4096_S4x2048x4096
      = output (argBase m c) (argA m c) (argB m c) (argX m c) (argBias m c) := by
  funext i
  obtain ⟨b, s, o, rfl⟩ : ∃ (b : Fin 4) (s : Fin 2048) (o : Fin 4096), i = ix3 b s o := ⟨i 0, i 1, i 2, eq_ix3 i⟩
  have hb := b.isLt; have hs := s.isLt
  rw [shapeCast_apply (outArr m c) shapeCasts_S8192x4096_S4x2048x4096 (ix3 b s o) (ix2 ⟨2048 * b.val + s.val, by omega⟩ o) (by
    rw [Shape.rowMajor_val_three, Shape.rowMajor_val_two]
    show (2048 * b.val + s.val) * 4096 + o.val = (b.val * 2048 + s.val) * 4096 + o.val
    omega)]
  show partialDot (xArr m c) (bwArr m c) (laArr m c) (lbArr m c) (2048 * b.val + s.val) o.val 8 + at2 (biasArr m c) 0 o.val
    = (∑ e : Fin 4096, (argX m c) (ix3 b s e) * weight (argBase m c) (argA m c) (argB m c) o.val e.val) + (argBias m c) (ix1 o)
  rw [partialDot_full, biasArr_apply]
  refine congrArg (· + (argBias m c) (ix1 o)) (Finset.sum_congr rfl fun e _ => ?_)
  unfold term
  rw [xArr_apply, bwArr_eq, laArr_eq, lbArr_eq]

/-- After the grid, the program's last operation leaves the tensor view of `outArr` in the result buffer. -/
theorem tail_eq (c : Dev nD) : Pipeline.afterTail₀ cfgs (dats m) 0 (V0 m) [hostOps1] c main_v3
    = shapeCast S4x2048x4096 (outArr m c) shapeCasts_S8192x4096_S4x2048x4096 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2) = outArr m c :=
    (Pipeline.withArrays_arr spec0 launch0.win.arr_inj c _ _ 5).trans (final m c)
  exact congrArg (fun v : Vec Ideal S8192x4096 .f32 => shapeCast S4x2048x4096 v shapeCasts_S8192x4096_S4x2048x4096) hw

/-- The run, read: every weakly fair execution terminates with the result buffer at the layer's output function of the
    arguments, and the arguments unchanged. -/
theorem run : θ_run defs (onTc (τ := τ) (main (F := Ideal))) ⟨m, fun _ => 0, ρ⟩ fun r => ∀ c : Dev nD,
      r.2.mem ((c.tc : Thread nD τ).loc main_v3) = output (argBase m c) (argA m c) (argB m c) (argX m c) (argBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v3 (Pipeline.mem_restRefs_of main_v3 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference computes the layer's output function.

  Read one operation at a time, jnp's program forms the merged weight  base + 2 · (B · A)  (a `dot_general`
  over the rank, a multiplication by the constant 2, an addition), contracts `x` against it over the 4096 input
  features, and adds the bias broadcast over batch and sequence.  Index by index that is `LoraLinear.output`.
-/
import proofs.«179068_j43250320670934_1_alg».proof.Proof.Gen.ReferenceIdeal.Run
import proofs.«179068_j43250320670934_1_alg».proof.Proof.Gen.ReferenceIdeal.Read
import proofs.«179068_j43250320670934_1_alg».proof.Proof.Spec

noncomputable section

namespace Cert.ReferenceIdeal.RefValue

open Cert.ReferenceIdeal Cert.ReferenceIdeal.Read Idealize.ShloMosaic Idealize.ShloMosaic.ValueIdx LoraLinear

/-- The reference's last stage at entry (b, s, o): the contraction of row (b, s) of `x` against row `o` of the
    merged weight, plus `bias[o]`. -/
theorem reference_apply (x0 : S4x2048x4096.Idx → EReal) (x1 : S4096x4096.Idx → EReal) (x2 : S8x4096.Idx → EReal)
    (x3 : S4096x8.Idx → EReal) (x4 : S4096.Idx → EReal) (b : Fin 4) (s : Fin 2048) (o : Fin 4096) :
    val_main_v7 (F := Ideal) x0 x1 x2 x3 x4 (ix3 b s o)
      = (∑ e : Fin 4096, x0 (ix3 b s e) * weight x1 x2 x3 o.val e.val) + x4 (ix1 o) := by
  rw [val_main_v7_apply, val_main_v4_apply, val_main_v6_apply, val_main_v5_apply]
  have eb : idx_main_v5 (idx_main_v6 (ix3 b s o)) = ix1 o := funext fun a => by
    match a with
    | ⟨0, _⟩ => rfl
  rw [eb, Ideal.addf_def]
  refine congrArg (· + x4 (ix1 o)) (Finset.sum_congr rfl fun k _ => ?_)
  have el : lidx_main_v4 (ix3 b s o) k = ix3 b s k := funext fun a => by
    match a with
    | ⟨0, _⟩ => rfl
    | ⟨1, _⟩ => rfl
    | ⟨2, _⟩ => rfl
  have er : ridx_main_v4 (ix3 b s o) k = ix2 o k := funext fun a => by
    match a with
    | ⟨0, _⟩ => rfl
    | ⟨1, _⟩ => rfl
  rw [el, er, val_main_v3_apply, val_main_v2_apply, val_main_v1_apply, val_main_cst_apply, val_main_v0_apply]
  unfold weight
  rw [at2_ix2, Ideal.addf_def, Ideal.mulf_def, Ideal.ofBits_def]
  refine congrArg (fun t => x0 (ix3 b s k) * (x1 (ix2 o k) + two * t)) (Finset.sum_congr rfl fun r _ => ?_)
  have e3 : lidx_main_v0 (ix2 o k) r = ix2 o r := funext fun a => by
    match a with
    | ⟨0, _⟩ => rfl
    | ⟨1, _⟩ => rfl
  have e2 : ridx_main_v0 (ix2 o k) r = ix2 r k := funext fun a => by
    match a with
    | ⟨0, _⟩ => rfl
    | ⟨1, _⟩ => rfl
  rw [e3, e2, at2_ix2, at2_ix2]

/-- So the reference's last stage is the layer's output function of the five arguments. -/
theorem reference_eq (x0 : S4x2048x4096.Idx → EReal) (x1 : S4096x4096.Idx → EReal) (x2 : S8x4096.Idx → EReal)
    (x3 : S4096x8.Idx → EReal) (x4 : S4096.Idx → EReal) :
    val_main_v7 (F := Ideal) x0 x1 x2 x3 x4 = output x1 x2 x3 x0 x4 := by
  funext i
  obtain ⟨b, s, o, rfl⟩ : ∃ (b : Fin 4) (s : Fin 2048) (o : Fin 4096), i = ix3 b s o := ⟨i 0, i 1, i 2, eq_ix3 i⟩
  exact reference_apply x0 x1 x2 x3 x4 b s o

end Cert.ReferenceIdeal.RefValue

end
-- ==== Proof.lean ====
/-
  The proof of `Cert.Claim` for the LoRA linear layer  y = x · (base + 2 · B · A)ᵀ + bias.

  The kernel tiles rows, output features and input features (8 × 4 × 8 grid points); for each row tile and column
  tile it keeps a running sum over the eight stretches of 512 input features, merging the low-rank update into the
  weight tile on the fly, and writes the tile out with the bias after the last stretch.  The reference forms the
  merged weight whole and contracts over all 4096 input features at once.

  Over the extended reals both are the same function of the five arguments (`LoraLinear.output`): the changes of
  float format are the identity, the matrix products are plain finite sums, and a sum over 4096 features is the sum
  of its eight consecutive stretches — associativity and commutativity of addition only, so finiteness of the inputs
  is never used.

    Spec         the output function and the split of the contraction into stretches
    Payload      the body's three stored values, entry by entry
    Pieces       what each control case of the body leaves behind
    Blocks       which array entries each grid point sees
    Running      the running sum after each point, by induction on the point
    Written      the output array after the grid
    KernelValue  the kernel's result through the reshapes around the grid, and its run
    RefValue     the reference's result

  The ideal pass rewrote nothing, so `preserves` is trivial; the kernel frames are the generated ones, the
  reference's frame is its run.
-/
import proofs.«179068_j43250320670934_1_alg».proof.Defs
import proofs.«179068_j43250320670934_1_alg».proof.Proof.Gen.Kernel
import proofs.«179068_j43250320670934_1_alg».proof.Proof.Gen.Kernel.Frame
import proofs.«179068_j43250320670934_1_alg».proof.Proof.Gen.KernelIdeal
import proofs.«179068_j43250320670934_1_alg».proof.Proof.Gen.KernelIdeal.Frame
import proofs.«179068_j43250320670934_1_alg».proof.Proof.Gen.ReferenceIdeal
import proofs.«179068_j43250320670934_1_alg».proof.Proof.Gen.ReferenceIdeal.Run
import proofs.«179068_j43250320670934_1_alg».proof.Proof.Gen.ReferenceIdeal.Read
import proofs.«179068_j43250320670934_1_alg».proof.Proof.Gen.Pre_finite_inputs
import proofs.«179068_j43250320670934_1_alg».proof.Proof.KernelValue
import proofs.«179068_j43250320670934_1_alg».proof.Proof.RefValue
import Idealize.ShloMosaic.Adequacy
import Idealize.ShloMosaic.Init

noncomputable section

namespace Cert.Proof

open Idealize.ShloMosaic Idealize.SL.Sem LoraLinear

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `LoraLinear.output` of arguments that agree. -/
theorem algebraic : Cert.algebraic_KernelIdeal_ReferenceIdeal := by
  intro m ρ m' ρ' _ hagree
  refine ⟨fun c => output (Cert.KernelIdeal.KernelValue.argBase m c) (Cert.KernelIdeal.KernelValue.argA m c) (Cert.KernelIdeal.KernelValue.argB m c) (Cert.KernelIdeal.KernelValue.argX m c) (Cert.KernelIdeal.KernelValue.argBias m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
